-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S63x4096 : S_.BroadcastsInDim S63x4096 (![] : Fin 0 → Fin S63x4096.rank)
  reducesTo_S63x4096_S_d0_1 : S63x4096.ReducesTo [0, 1] S_
  bcast_S_S4096x63 : S_.BroadcastsInDim S4096x63 (![] : Fin 0 → Fin S4096x63.rank)
  reducesTo_S4096x63_S_d0_1 : S4096x63.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S4096x63 .f32) (main_arg5 : FVec F S6 .f32) (main_arg6 : FVec F S6 .f32) (main_v13 : IVec S_ 1) (main_v16 : IVec S63x4096 1) : IVec S_ 1 :=
  let main_c_5 : IVec S_ 1 := constantI S_ 1 1#1
  let main_v17 : IVec S_ 1 := (fun x v => Host.reduce IntOp.andi x v reducesTo_S63x4096_S_d0_1 h_S_) main_v16 main_c_5
  let main_v18 : IVec S_ 1 := andi main_v13 main_v17
  let main_v19 : FVec F S4096x63 .f32 := Host.absf main_arg4
  let main_cst_6 : FVec F S_ .f32 := constant S_ .f32 0x7F800000#32
  let main_v20 : FVec F S4096x63 .f32 := broadcastInDim S4096x63 ![] bcast_S_S4096x63 main_cst_6
  let main_v21 : IVec S4096x63 1 := cmpf .olt main_v19 main_v20
  let main_c_7 : IVec S_ 1 := constantI S_ 1 1#1
  let main_v22 : IVec S_ 1 := (fun x v => Host.reduce IntOp.andi x v reducesTo_S4096x63_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S63x4096 .f32) (main_arg4 : FVec F S4096x63 .f32) (main_arg5 : FVec F S6 .f32) (main_arg6 : FVec F S6 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S63x4096 .f32 := Host.absf main_arg3
  let main_cst_4 : FVec F S_ .f32 := constant S_ .f32 0x7F800000#32
  let main_v15 : FVec F S63x4096 .f32 := broadcastInDim S63x4096 ![] bcast_S_S63x4096 main_cst_4
  let main_v16 : IVec S63x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S63 : Shape := ⟨1, ![63]⟩
abbrev S_ : Shape := ⟨0, ![]⟩
abbrev S63x1 : Shape := ⟨2, ![63, 1]⟩
abbrev S8192x4096 : Shape := ⟨2, ![8192, 4096]⟩
abbrev S1x4096 : Shape := ⟨2, ![1, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 27
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S63x4096, .f32⟩
  | .hbm, ⟨4, _⟩ => ⟨S4096x63, .f32⟩
  | .hbm, ⟨5, _⟩ => ⟨S6, .f32⟩
  | .hbm, ⟨6, _⟩ => ⟨S6, .f32⟩
  | .hbm, ⟨7, _⟩ => ⟨S63, .i32⟩
  | .hbm, ⟨8, _⟩ => ⟨S63, .i1⟩
  | .hbm, ⟨9, _⟩ => ⟨S6, .f32⟩
  | .hbm, ⟨10, _⟩ => ⟨S_, .i32⟩
  | .hbm, ⟨11, _⟩ => ⟨S63, .i32⟩
  | .hbm, ⟨12, _⟩ => ⟨S63, .i32⟩
  | .hbm, ⟨13, _⟩ => ⟨S63, .i32⟩
  | .hbm, ⟨14, _⟩ => ⟨S63x1, .i32⟩
  | .hbm, ⟨15, _⟩ => ⟨S63, .f32⟩
  | .hbm, ⟨16, _⟩ => ⟨S63x1, .f32⟩
  | .hbm, ⟨17, _⟩ => ⟨S63x4096, .f32⟩
  | .hbm, ⟨18, _⟩ => ⟨S63x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S4x2048x4096, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S63 : S_.BroadcastsInDim S63 (![] : Fin 0 → Fin S63.rank)
  bcast_S63_S63x1_0 : S63.BroadcastsInDim S63x1 (![0] : Fin 1 → Fin S63x1.rank)
  bcast_S63x1_S63x4096_0_1 : S63x1.BroadcastsInDim S63x4096 (![0, 1] : Fin 2 → Fin S63x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  gather_S6_S63x1_S63_n_0_n_n_0_1_1_wf : GatherDims.WF S6 S63x1 S63 [] [0] [] [0] [] 1 ![1]
  dot_S4096x63_S63x4096_S4096x4096_1_0_0_1_n_n_wf : DotDims.WF S4096x63 S63x4096 S4096x4096 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def gather_S6_S63x1_S63_n_0_n_n_0_1_1 : GatherDims S6 S63x1 S63 where
  offsetDims := []
  collapsedSliceDims := [0]
  operandBatchingDims := []
  startIndicesBatchingDims := []
  startIndexMap := [0]
  indexVectorDim := 1
  sliceSizes := ![1]
  wf := gather_S6_S63x1_S63_n_0_n_n_0_1_1_wf
def dot_S4096x63_S63x4096_S4096x4096_1_0_0_1_n_n : DotDims S4096x63 S63x4096 S4096x4096 where
  lhsContracting := [1]
  rhsContracting := [0]
  lhsNonContracting := [0]
  rhsNonContracting := [1]
  lhsBatch := []
  rhsBatch := []
  wf := dot_S4096x63_S63x4096_S4096x4096_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v13) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S63x4096 : Shape := ⟨2, ![63, 4096]⟩
abbrev S4096x63 : Shape := ⟨2, ![4096, 63]⟩
abbrev S6 : Shape := ⟨1, ![6]⟩
abbrev S63 : Shape := ⟨1, ![63]⟩
abbrev S1x1x4096 : Shape := ⟨3, ![1, 1, 4096]⟩
abbrev S_ : Shape := ⟨0, ![]⟩
abbrev S63x1 : Shape := ⟨2, ![63, 1]⟩
abbrev S4x2048x63 : Shape := ⟨3, ![4, 2048, 63]⟩
abbrev S1x1x63 : Shape := ⟨3, ![1, 1, 63]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S63x4096, .f32⟩
  | .hbm, ⟨4, _⟩ => ⟨S4096x63, .f32⟩
  | .hbm, ⟨5, _⟩ => ⟨S6, .f32⟩
  | .hbm, ⟨6, _⟩ => ⟨S6, .f32⟩
  | .hbm, ⟨7, _⟩ => ⟨S63, .i32⟩
  | .hbm, ⟨8, _⟩ => ⟨S63, .i1⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S6, .f32⟩
  | .hbm, ⟨14, _⟩ => ⟨S_, .i32⟩
  | .hbm, ⟨15, _⟩ => ⟨S63, .i32⟩
  | .hbm, ⟨16, _⟩ => ⟨S63, .i32⟩
  | .hbm, ⟨17, _⟩ => ⟨S63, .i32⟩
  | .hbm, ⟨18, _⟩ => ⟨S63x1, .i32⟩
  | .hbm, ⟨19, _⟩ => ⟨S63, .f32⟩
  | .hbm, ⟨20, _⟩ => ⟨S4x2048x63, .f32⟩
  | .hbm, ⟨21, _⟩ => ⟨S1x1x63, .f32⟩
  | .hbm, ⟨22, _⟩ => ⟨S4x2048x63, .f32⟩
  | .hbm, ⟨23, _⟩ => ⟨S4x2048x63, .f32⟩
  | .hbm, ⟨24, _⟩ => ⟨S4x2048x4096, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S63 : S_.BroadcastsInDim S63 (![] : Fin 0 → Fin S63.rank)
  bcast_S63_S63x1_0 : S63.BroadcastsInDim S63x1 (![0] : Fin 1 → Fin S63x1.rank)
  bcast_S63_S1x1x63_2 : S63.BroadcastsInDim S1x1x63 (![2] : Fin 1 → Fin S1x1x63.rank)
  bcast_S1x1x63_S4x2048x63_0_1_2 : S1x1x63.BroadcastsInDim S4x2048x63 (![0, 1, 2] : Fin 3 → Fin S4x2048x63.rank)
  dot_S4x2048x4096_S4096x4096_S4x2048x4096_2_1_01_0_n_n_wf : DotDims.WF S4x2048x4096 S4096x4096 S4x2048x4096 [2] [1] [0, 1] [0] [] []
  gather_S6_S63x1_S63_n_0_n_n_0_1_1_wf : GatherDims.WF S6 S63x1 S63 [] [0] [] [0] [] 1 ![1]
  dot_S4x2048x4096_S63x4096_S4x2048x63_2_1_01_0_n_n_wf : DotDims.WF S4x2048x4096 S63x4096 S4x2048x63 [2] [1] [0, 1] [0] [] []
  dot_S4x2048x63_S4096x63_S4x2048x4096_2_1_01_0_n_n_wf : DotDims.WF S4x2048x63 S4096x63 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def gather_S6_S63x1_S63_n_0_n_n_0_1_1 : GatherDims S6 S63x1 S63 where
  offsetDims := []
  collapsedSliceDims := [0]
  operandBatchingDims := []
  startIndicesBatchingDims := []
  startIndexMap := [0]
  indexVectorDim := 1
  sliceSizes := ![1]
  wf := gather_S6_S63x1_S63_n_0_n_n_0_1_1_wf
def dot_S4x2048x4096_S63x4096_S4x2048x63_2_1_01_0_n_n : DotDims S4x2048x4096 S63x4096 S4x2048x63 where
  lhsContracting := [2]
  rhsContracting := [1]
  lhsNonContracting := [0, 1]
  rhsNonContracting := [0]
  lhsBatch := []
  rhsBatch := []
  wf := dot_S4x2048x4096_S63x4096_S4x2048x63_2_1_01_0_n_n_wf
def dot_S4x2048x63_S4096x63_S4x2048x4096_2_1_01_0_n_n : DotDims S4x2048x63 S4096x63 S4x2048x4096 where
  lhsContracting := [2]
  rhsContracting := [1]
  lhsNonContracting := [0, 1]
  rhsNonContracting := [0]
  lhsBatch := []
  rhsBatch := []
  wf := dot_S4x2048x63_S4096x63_S4x2048x4096_2_1_01_0_n_n_wf

class Facts : Prop extends Facts₀ where

variable [Facts]
-- ==== Proof.Spec.lean ====
/-
  The mathematics of the certificate, with no program in sight.

  A linear layer with a low-rank correction.  With `x` the input rows, `W` the base weight, `b` the bias, `A` and `B`
  the two low-rank factors and `g` the per-rank scale, one side folds the correction into the weight first,

      out[p,q,o] = (∑ₖ x[p,q,k] · (W[o,k] + ∑ᵣ B[o,r] · (A[r,k] · g[r]))) + b[o],

  the contraction taken in two halves of 2048 columns, first the low half, then the high one; the other side keeps the
  two branches apart,

      out[p,q,o] = (∑ᵢ x[p,q,i] · W[o,i] + b[o]) + ∑ᵣ ((∑ᵢ x[p,q,i] · A[r,i]) · g[r]) · B[o,r].

  Over the reals the two are one number: distribute `x[p,q,k]` over the inner sum, exchange the sums over `k` and `r`,
  and regroup.  Distributivity fails at the infinities of the extended reals, so the law is stated for arrays whose
  every entry is a real number.
-/
import Idealize.ShloMosaic.PureOps.Ideal
import Idealize.ShloMosaic.Lib.ValueIdx

noncomputable section

namespace Cert.FusedLora

open Idealize.ShloMosaic Idealize.ShloMosaic.ValueIdx

/-- The shapes of the six arrays the result is a function of. -/
abbrev Sx : Shape := ⟨3, ![4, 2048, 4096]⟩
abbrev Sw : Shape := ⟨2, ![4096, 4096]⟩
abbrev Sb : Shape := ⟨1, ![4096]⟩
abbrev Sa : Shape := ⟨2, ![63, 4096]⟩
abbrev Sbm : Shape := ⟨2, ![4096, 63]⟩
abbrev Sg : Shape := ⟨1, ![63]⟩

/-- Column `k` of the low half of the 4096 contraction columns, and of the high half. -/
abbrev lo (k : Fin 2048) : Fin 4096 := Fin.castAdd 2048 k
abbrev hi (k : Fin 2048) : Fin 4096 := Fin.natAdd 2048 k

/-- The weight with the low-rank correction folded in, at output feature `o` and input feature `i`. -/
def fusedW (W : Sw.Idx → EReal) (A : Sa.Idx → EReal) (B : Sbm.Idx → EReal) (g : Sg.Idx → EReal) (o i : Fin 4096) : EReal :=
  W (ix2 o i) + ∑ r : Fin 63, B (ix2 o r) * (A (ix2 r i) * g (ix1 r))

/-- The fused side at batch `p`, position `q`, output feature `o`: the two half contractions against the folded weight,
    low half first, then the bias. -/
def kerAt (x : Sx.Idx → EReal) (W : Sw.Idx → EReal) (b : Sb.Idx → EReal) (A : Sa.Idx → EReal) (B : Sbm.Idx → EReal)
    (g : Sg.Idx → EReal) (p : Fin 4) (q : Fin 2048) (o : Fin 4096) : EReal :=
  ((∑ k : Fin 2048, x (ix3 p q (lo k)) * fusedW W A B g o (lo k))
    + ∑ k : Fin 2048, x (ix3 p q (hi k)) * fusedW W A B g o (hi k)) + b (ix1 o)

/-- The two-branch side at the same place: the base product plus bias, then the scaled low-rank projection carried back. -/
def refAt (x : Sx.Idx → EReal) (W : Sw.Idx → EReal) (b : Sb.Idx → EReal) (A : Sa.Idx → EReal) (B : Sbm.Idx → EReal)
    (g : Sg.Idx → EReal) (p : Fin 4) (q : Fin 2048) (o : Fin 4096) : EReal :=
  (∑ i : Fin 4096, x (ix3 p q i) * W (ix2 o i) + b (ix1 o))
    + ∑ r : Fin 63, ((∑ i : Fin 4096, x (ix3 p q i) * A (ix2 r i)) * g (ix1 r)) * B (ix2 o r)

/-- Both sides as whole arrays. -/
def kerOut (x : Sx.Idx → EReal) (W : Sw.Idx → EReal) (b : Sb.Idx → EReal) (A : Sa.Idx → EReal) (B : Sbm.Idx → EReal)
    (g : Sg.Idx → EReal) : Sx.Idx → EReal := fun j => kerAt x W b A B g (j 0) (j 1) (j 2)
def refOut (x : Sx.Idx → EReal) (W : Sw.Idx → EReal) (b : Sb.Idx → EReal) (A : Sa.Idx → EReal) (B : Sbm.Idx → EReal)
    (g : Sg.Idx → EReal) : Sx.Idx → EReal := fun j => refAt x W b A B g (j 0) (j 1) (j 2)

/-- The law over the reals, over any finite index types: `ι` one half of the contraction, `ρ` the rank. -/
theorem real_law {ι ρ : Type} [Fintype ι] [Fintype ρ] (xa xb wa wb : ι → ℝ) (aa ab : ρ → ι → ℝ) (β γ : ρ → ℝ) (bias : ℝ) :
    ((∑ k, xa k * wa k + ∑ k, xb k * wb k) + bias)
        + ∑ r, ((∑ k, xa k * aa r k + ∑ k, xb k * ab r k) * γ r) * β r
      = ((∑ k, xa k * (wa k + ∑ r, β r * (aa r k * γ r))) + ∑ k, xb k * (wb k + ∑ r, β r * (ab r k * γ r))) + bias := by
  have h1 : ∀ (x : ι → ℝ) (a : ρ → ι → ℝ),
      ∑ k, x k * ∑ r, β r * (a r k * γ r) = ∑ r, ((∑ k, x k * a r k) * γ r) * β r := by
    intro x a
    simp only [Finset.mul_sum, Finset.sum_mul]
    rw [Finset.sum_comm]
    exact Finset.sum_congr rfl fun r _ => Finset.sum_congr rfl fun k _ => by ring
  simp only [mul_add, add_mul, Finset.sum_add_distrib, h1]
  ring

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 4096 columns is the sum over the low half plus the sum over the high half. -/
theorem sum_halves {M : Type} [AddCommMonoid M] (f : Fin 4096 → M) : ∑ i, f i = ∑ k, f (lo k) + ∑ k, f (hi k) :=
  Fin.sum_univ_add (a := 2048) (b := 2048) f

/-- THE BRIDGE: on arrays of real numbers the two-branch side is the fused side, entry by entry. -/
theorem bridge_at (x : Sx.Idx → EReal) (W : Sw.Idx → EReal) (b : Sb.Idx → EReal) (A : Sa.Idx → EReal) (B : Sbm.Idx → EReal)
    (g : Sg.Idx → EReal) (hx : ∀ i, ∃ r : ℝ, x i = r) (hW : ∀ i, ∃ r : ℝ, W i = r) (hb : ∀ i, ∃ r : ℝ, b i = r)
    (hA : ∀ i, ∃ r : ℝ, A i = r) (hB : ∀ i, ∃ r : ℝ, B i = r) (hg : ∀ i, ∃ r : ℝ, g i = r)
    (p : Fin 4) (q : Fin 2048) (o : Fin 4096) : refAt x W b A B g p q o = kerAt x W b A B g p q o := by
  choose x' hx using hx
  choose W' hW using hW
  choose b' hb using hb
  choose A' hA using hA
  choose B' hB using hB
  choose g' hg using hg
  unfold refAt kerAt fusedW
  simp only [hx, hW, hb, hA, hB, hg, sum_halves]
  simp only [← EReal.coe_mul, ← coe_sum, ← EReal.coe_add]
  exact congrArg _ (real_law _ _ _ _ _ _ _ _ _)

theorem bridge (x : Sx.Idx → EReal) (W : Sw.Idx → EReal) (b : Sb.Idx → EReal) (A : Sa.Idx → EReal) (B : Sbm.Idx → EReal)
    (g : Sg.Idx → EReal) (hx : ∀ i, ∃ r : ℝ, x i = r) (hW : ∀ i, ∃ r : ℝ, W i = r) (hb : ∀ i, ∃ r : ℝ, b i = r)
    (hA : ∀ i, ∃ r : ℝ, A i = r) (hB : ∀ i, ∃ r : ℝ, B i = r) (hg : ∀ i, ∃ r : ℝ, g i = r) :
    refOut x W b A B g = kerOut x W b A B g :=
  funext fun j => bridge_at x W b A B g hx hW hb hA hB hg (j 0) (j 1) (j 2)

/-- An entry of a gathered vector is an entry of the operand, so gathering from real numbers gives real numbers. -/
theorem gather_real {s si so : Shape} (gd : GatherDims s si so) {w : Nat} (v : s.Idx → EReal) (idx : IVec si w)
    (hv : ∀ i, ∃ r : ℝ, v i = r) (y : so.Idx) : ∃ r : ℝ, Host.gather gd v idx y = r := by
  unfold Host.gather
  exact hv _

/-- A product of two arrays of real numbers is an array of real numbers. -/
theorem mul_real {s : Shape} (u v : s.Idx → EReal) (hu : ∀ i, ∃ r : ℝ, u i = r) (hv : ∀ i, ∃ r : ℝ, v i = r) (i : s.Idx) :
    ∃ r : ℝ, u i * v i = r := by
  obtain ⟨a, ha⟩ := hu i
  obtain ⟨c, hc⟩ := hv i
  exact ⟨a * c, by rw [ha, hc, EReal.coe_mul]⟩

end Cert.FusedLora

end
-- ==== Proof.Finite.lean ====
/-
  From the precondition to numbers: when the finiteness predicate is all ones, every entry of every input is a real.
-/
import proofs.«114046_j86208583566010_1_alg».proof.Proof.Gen.Pre_finite_inputs
import Idealize.ShloMosaic.PureOps.Ideal
import Idealize.ShloMosaic.Lib.ReduceAll
import Idealize.ShloMosaic.Lib.ValueIdx

noncomputable section

namespace Cert.FiniteInputs

open Cert.Pre_finite_inputs Cert.Pre_finite_inputs.Gen Idealize.ShloMosaic

/-- The rank-0 shape has exactly one index: there is no axis on which two indices could differ. -/
local instance subsingleton_S_Idx : Subsingleton S_.Idx := ⟨fun a b => funext fun d => d.elim0⟩

/-- The f32 pattern with sign 0, exponent all ones and significand 0 denotes `+∞`, the top of the extended reals. -/
theorem inf_f32 : Ideal.ofBits .f32 0x7F800000#32 = (⊤ : EReal) := by
  simp [Ideal.ofBits, Ideal.ieee]

/-- An extended real whose absolute value `max a (-a)` lies strictly below `+∞` is a real number:
    at `a = -∞` the maximum is `-(-∞) = +∞`, at `a = +∞` it is `+∞` itself, and neither is below `+∞`. -/
theorem real_of_abs_lt_top (a : EReal) (h : max a (-a) < ⊤) : ∃ r : ℝ, a = r := by
  induction a using EReal.rec with
  | bot => simp at h
  | coe r => exact ⟨r, rfl⟩
  | top => simp at h

/-- One input's bit. If the conjunction over every index of `|v i| < +∞` is 1, then every entry of `v` is a real:
    a conjunction that is 1 met only 1s, the comparison at `i` being 1 says `max (v i) (-(v i)) < +∞`
    (the broadcast of the one-entry constant reads `+∞` at every index), and such a `v i` is a real. -/
theorem reals_of_bit {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi (cmpf .olt (Host.absf v) (broadcastInDim s ![] hb (constant S_ .f32 0x7F800000#32)))
          (constantI S_ 1 1#1) hr hu ValueIdx.ix0 = 1#1) :
    ∀ i, ∃ r : ℝ, v i = r := by
  intro i
  have h1 := Host.reduce_andi_all _ _ hr hu ValueIdx.ix0 e i
  have h2 : Ideal.cmp .olt (max (v i) (-(v i))) (Ideal.ofBits .f32 0x7F800000#32) = 1#1 := h1
  rw [inf_f32] at h2
  have h3 : max (v i) (-(v i)) < (⊤ : EReal) := by
    by_contra hn
    simp [Ideal.cmp, hn] at h2
  exact real_of_abs_lt_top _ h3

theorem reals_of_pre (x : FVec Ideal S4x2048x4096 .f32) (W : FVec Ideal S4096x4096 .f32) (b : FVec Ideal S4096 .f32)
    (A : FVec Ideal S63x4096 .f32) (B : FVec Ideal S4096x63 .f32) (al sc : FVec Ideal S6 .f32)
    (h : Cert.Pre_finite_inputs.fn (F := Ideal) x W b A B al sc = fun _ => 1#1) :
    (∀ i, ∃ r : ℝ, x i = r) ∧ (∀ i, ∃ r : ℝ, W i = r) ∧ (∀ i, ∃ r : ℝ, b i = r) ∧ (∀ i, ∃ r : ℝ, A i = r)
      ∧ (∀ i, ∃ r : ℝ, B i = r) ∧ (∀ i, ∃ r : ℝ, al i = r) ∧ (∀ i, ∃ r : ℝ, sc i = r) := by
  -- the predicate's one bit is the conjunction of seven bits, one per input; a conjunction that is 1 has every conjunct 1
  have h0 := congrFun h ValueIdx.ix0
  dsimp only [fn, fn_part1] at h0
  simp only [Idealize.ShloMosaic.andi, IntOp.andi_eq_one] at h0
  obtain ⟨⟨⟨⟨⟨⟨hx, hW⟩, hb⟩, hA⟩, hB⟩, hal⟩, hsc⟩ := h0
  exact ⟨reals_of_bit x _ _ _ hx, reals_of_bit W _ _ _ hW, reals_of_bit b _ _ _ hb, reals_of_bit A _ _ _ hA,
    reals_of_bit B _ _ _ hB, reals_of_bit al _ _ _ hal, reals_of_bit sc _ _ _ hsc⟩

end Cert.FiniteInputs

end
-- ==== Proof.RefSide.lean ====
/-
  The reference's side: its @main read back as one function of the argument arrays.
-/
import proofs.«114046_j86208583566010_1_alg».proof.Proof.Gen.ReferenceIdeal
import proofs.«114046_j86208583566010_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Which of the six rank branches each of the 63 stacked rows belongs to, as the start indices of the gather. -/
abbrev segIdx : IVec S63x1 32 :=
  broadcastInDim S63x1 ![0] bcast_S63_S63x1_0 (select (constantI S63 1 0#1)
    (addi (fun i => lit0 (S63.rowMajor i)) (broadcastInDim S63 ![] bcast_S_S63 (constantI S_ 32 6#32))) (fun i => lit0 (S63.rowMajor i)))

/-- The per-row scale: the product of the two six-entry vectors, gathered by branch. -/
def comb (al sc : FVec Ideal S6 .f32) : FVec Ideal S63 .f32 :=
  Host.gather gather_S6_S63x1_S63_n_0_n_n_0_1_1 (mulf al sc) segIdx

section Run

variable {F : FTy → Type} [FloatOps F]

/-- @main's operations, in order. -/
abbrev ops : List (HloOp τ sig (Elt F)) :=
  [ nullary main_c (fun i => lit0 (S63.rowMajor i)),
    nullary main_c_0 (constantI S63 1 0#1),
    binary main_arg0 main_arg1 main_v0 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v1 (broadcastInDim S1x1x4096 ![2] bcast_S4096_S1x1x4096_2 : (⟨S4096, .f32⟩ : BufTy).Contents (Elt F) → (⟨S1x1x4096, .f32⟩ : BufTy).Contents (Elt F)),
    unary main_v1 main_v2 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v0 main_v2 main_v3 (addf : (⟨S4x2048x4096, .f32⟩ : BufTy).Contents (Elt F) → (⟨S4x2048x4096, .f32⟩ : BufTy).Contents (Elt F) → (⟨S4x2048x4096, .f32⟩ : BufTy).Contents (Elt F)),
    binary main_arg5 main_arg6 main_v4 (mulf : (⟨S6, .f32⟩ : BufTy).Contents (Elt F) → (⟨S6, .f32⟩ : BufTy).Contents (Elt F) → (⟨S6, .f32⟩ : BufTy).Contents (Elt F)),
    nullary main_c_1 (constantI S_ 32 6#32),
    unary main_c_1 main_v5 (broadcastInDim S63 ![] bcast_S_S63 : (⟨S_, .i32⟩ : BufTy).Contents (Elt F) → (⟨S63, .i32⟩ : BufTy).Contents (Elt F)),
    binary main_c main_v5 main_v6 (addi : (⟨S63, .i32⟩ : BufTy).Contents (Elt F) → (⟨S63, .i32⟩ : BufTy).Contents (Elt F) → (⟨S63, .i32⟩ : BufTy).Contents (Elt F)),
    ternary main_c_0 main_v6 main_c main_v7 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    unary main_v7 main_v8 (broadcastInDim S63x1 ![0] bcast_S63_S63x1_0 : (⟨S63, .i32⟩ : BufTy).Contents (Elt F) → (⟨S63x1, .i32⟩ : BufTy).Contents (Elt F)),
    binary main_v4 main_v8 main_v9 ((fun x i => Host.gather gather_S6_S63x1_S63_n_0_n_n_0_1_1 x i) : (⟨S6, .f32⟩ : BufTy).Contents (Elt F) → (⟨S63x1, .i32⟩ : BufTy).Contents (Elt F) → (⟨S63, .f32⟩ : BufTy).Contents (Elt F)),
    binary main_arg0 main_arg3 main_v10 ((fun l r => Host.dotGeneral dot_S4x2048x4096_S63x4096_S4x2048x63_2_1_01_0_n_n none l r) : (⟨S4x2048x4096, .f32⟩ : BufTy).Contents (Elt F) → (⟨S63x4096, .f32⟩ : BufTy).Contents (Elt F) → (⟨S4x2048x63, .f32⟩ : BufTy).Contents (Elt F)),
    unary main_v9 main_v11 (broadcastInDim S1x1x63 ![2] bcast_S63_S1x1x63_2 : (⟨S63, .f32⟩ : BufTy).Contents (Elt F) → (⟨S1x1x63, .f32⟩ : BufTy).Contents (Elt F)),
    unary main_v11 main_v12 (broadcastInDim S4x2048x63 ![0, 1, 2] bcast_S1x1x63_S4x2048x63_0_1_2 : (⟨S1x1x63, .f32⟩ : BufTy).Contents (Elt F) → (⟨S4x2048x63, .f32⟩ : BufTy).Contents (Elt F)),
    binary main_v10 main_v12 main_v13 (mulf : (⟨S4x2048x63, .f32⟩ : BufTy).Contents (Elt F) → (⟨S4x2048x63, .f32⟩ : BufTy).Contents (Elt F) → (⟨S4x2048x63, .f32⟩ : BufTy).Contents (Elt F)),
    binary main_v13 main_arg4 main_v14 ((fun l r => Host.dotGeneral dot_S4x2048x63_S4096x63_S4x2048x4096_2_1_01_0_n_n none l r) : (⟨S4x2048x63, .f32⟩ : BufTy).Contents (Elt F) → (⟨S4096x63, .f32⟩ : BufTy).Contents (Elt F) → (⟨S4x2048x4096, .f32⟩ : BufTy).Contents (Elt F)),
    binary main_v3 main_v14 main_v15 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
   binary_bufs_sub .., nullary_bufs_sub .., unary_bufs_sub .., binary_bufs_sub .., ternary_bufs_sub .., unary_bufs_sub ..,
   binary_bufs_sub .., binary_bufs_sub .., unary_bufs_sub .., unary_bufs_sub .., binary_bufs_sub .., binary_bufs_sub ..,
   binary_bufs_sub ..⟩

/-- The result array as one term of the seven argument arrays: the operations of @main composed. -/
def term (x : FVec F S4x2048x4096 .f32) (W : FVec F S4096x4096 .f32) (b : FVec F S4096 .f32) (A : FVec F S63x4096 .f32)
    (B : FVec F S4096x63 .f32) (al sc : FVec F S6 .f32) : FVec F S4x2048x4096 .f32 :=
  addf (addf (Host.dotGeneral dot_S4x2048x4096_S4096x4096_S4x2048x4096_2_1_01_0_n_n none x W)
        (broadcastInDim S4x2048x4096 ![0, 1, 2] bcast_S1x1x4096_S4x2048x4096_0_1_2 (broadcastInDim S1x1x4096 ![2] bcast_S4096_S1x1x4096_2 b)))
    (Host.dotGeneral dot_S4x2048x63_S4096x63_S4x2048x4096_2_1_01_0_n_n none
      (mulf (Host.dotGeneral dot_S4x2048x4096_S63x4096_S4x2048x63_2_1_01_0_n_n none x A)
        (broadcastInDim S4x2048x63 ![0, 1, 2] bcast_S1x1x63_S4x2048x63_0_1_2 (broadcastInDim S1x1x63 ![2] bcast_S63_S1x1x63_2
          (Host.gather gather_S6_S63x1_S63_n_0_n_n_0_1_1 (mulf al sc) segIdx)))) B)

/-- What the result buffer holds after the operations, from any contents: the composed term at the arguments' contents. -/
theorem after_out (V : Valuation τ sig (Elt F)) :
    after (ops (F := F)) V (Proc.devRef .tc main_v15)
      = term (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  unfold term
  after_results_simp
  rfl

theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v15)
        = term (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v15).trans (after_out _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Run

/-! ## The composed term at an index -/

section AtIndex

open Idealize.ShloMosaic.ValueIdx Cert.FusedLora

variable {a b k n : Nat}

/-- The dimension numbers all three products share: rows [a, b, k] against [n, k], contracting the last axis of each. -/
abbrev rowsDot (w : DotDims.WF ⟨3, ![a, b, k]⟩ ⟨2, ![n, k]⟩ ⟨3, ![a, b, n]⟩ [2] [1] [0, 1] [0] [] []) :
    DotDims ⟨3, ![a, b, k]⟩ ⟨2, ![n, k]⟩ ⟨3, ![a, b, n]⟩ := ⟨[2], [1], [0, 1], [0], [], [], w⟩

variable (w : DotDims.WF ⟨3, ![a, b, k]⟩ ⟨2, ![n, k]⟩ ⟨3, ![a, b, n]⟩ [2] [1] [0, 1] [0] [] [])

/-- The left operand is read at the result's batch coordinate … -/
theorem rowsDot_lhs_0 (j : (⟨3, ![a, b, n]⟩ : Shape).Idx) (c : (rowsDot w).contr.Idx) :
    ((rowsDot w).lhsIdx j c 0).val = (j 0).val := rfl
/-- … and row coordinate … -/
theorem rowsDot_lhs_1 (j : (⟨3, ![a, b, n]⟩ : Shape).Idx) (c : (rowsDot w).contr.Idx) :
    ((rowsDot w).lhsIdx j c 1).val = (j 1).val := rfl
/-- … and at the contraction's coordinate on its last axis. -/
theorem rowsDot_lhs_2 (j : (⟨3, ![a, b, n]⟩ : Shape).Idx) (c : (rowsDot w).contr.Idx) :
    ((rowsDot w).lhsIdx j c 2).val = (c ⟨0, Nat.one_pos⟩).val := rfl
/-- The right operand is read at the result's last coordinate … -/
theorem rowsDot_rhs_0 (j : (⟨3, ![a, b, n]⟩ : Shape).Idx) (c : (rowsDot w).contr.Idx) :
    ((rowsDot w).rhsIdx j c 0).val = (j 2).val := rfl
/-- … and at the contraction's coordinate on its last axis. -/
theorem rowsDot_rhs_1 (j : (⟨3, ![a, b, n]⟩ : Shape).Idx) (c : (rowsDot w).contr.Idx) :
    ((rowsDot w).rhsIdx j c 1).val = (c ⟨0, Nat.one_pos⟩).val := rfl

/-- Such a product at an index is the sum over the contracted coordinate of the products of the entries. -/
theorem rowsDot_apply {φ₁ φ₂ : FTy} (prec : Option ContractPrecision) (X : FVec Ideal ⟨3, ![a, b, k]⟩ φ₁) (Y : FVec Ideal ⟨2, ![n, k]⟩ φ₂)
    (p : Fin a) (q : Fin b) (o : Fin n) :
    Host.dotGeneral (rowsDot w) prec X Y (ix3 p q o) = ∑ i : Fin k, X (ix3 p q i) * Y (ix2 o i) := by
  show FloatOps.dotGeneral _ prec _ X Y (ix3 p q o) = _
  rw [Ideal.dotGeneral_apply, ← Equiv.sum_comp (contrEquiv1 (rowsDot w) k rfl rfl).symm]
  refine Finset.sum_congr rfl fun i _ => ?_
  have hc := contrEquiv1_symm_val (rowsDot w) k rfl rfl i
  have hl : (rowsDot w).lhsIdx (ix3 p q o) ((contrEquiv1 (rowsDot w) k rfl rfl).symm i) = ix3 p q i := by
    funext ax; apply Fin.ext
    match ax with
    | ⟨0, _⟩ => exact rowsDot_lhs_0 w _ _
    | ⟨1, _⟩ => exact rowsDot_lhs_1 w _ _
    | ⟨2, _⟩ => exact (rowsDot_lhs_2 w _ _).trans hc
  have hr : (rowsDot w).rhsIdx (ix3 p q o) ((contrEquiv1 (rowsDot w) k rfl rfl).symm i) = ix2 o i := by
    funext ax; apply Fin.ext
    match ax with
    | ⟨0, _⟩ => exact rowsDot_rhs_0 w _ _
    | ⟨1, _⟩ => exact (rowsDot_rhs_1 w _ _).trans hc
  rw [hl, hr]

/-- A vector of length n broadcast along the last axis, in two steps through [1, 1, n], reads its entry at the last coordinate. -/
theorem lastAxis_apply {α : Type} (hn : n ≠ 1) (h1 : (⟨1, ![n]⟩ : Shape).BroadcastsInDim ⟨3, ![1, 1, n]⟩ ![2])
    (h2 : (⟨3, ![1, 1, n]⟩ : Shape).BroadcastsInDim ⟨3, ![a, b, n]⟩ ![0, 1, 2]) (v : (⟨1, ![n]⟩ : Shape).Idx → α)
    (p : Fin a) (q : Fin b) (o : Fin n) :
    broadcastInDim ⟨3, ![a, b, n]⟩ ![0, 1, 2] h2 (broadcastInDim ⟨3, ![1, 1, n]⟩ ![2] h1 v) (ix3 p q o) = v (ix1 o) := by
  rw [broadcastInDim_apply ![0, 1, 2] h2 _ (ix3 p q o) (ix3 (0 : Fin 1) (0 : Fin 1) o) (fun ax => by
      match ax with
      | ⟨0, _⟩ => rfl
      | ⟨1, _⟩ => rfl
      | ⟨2, _⟩ => exact (if_neg hn).symm),
    broadcastInDim_apply ![2] h1 v (ix3 (0 : Fin 1) (0 : Fin 1) o) (ix1 o) (fun ax => by
      match ax with
      | ⟨0, _⟩ => exact (if_neg hn).symm)]

/-- THE READING: the operations of @main composed are the two-branch formula, entry by entry. -/
theorem term_eq (x : FVec Ideal S4x2048x4096 .f32) (W : FVec Ideal S4096x4096 .f32) (bias : FVec Ideal S4096 .f32)
    (A : FVec Ideal S63x4096 .f32) (B : FVec Ideal S4096x63 .f32) (al sc : FVec Ideal S6 .f32) :
    term (F := Ideal) x W bias A B al sc = refOut x W bias A B (comb al sc) := by
  funext j
  obtain ⟨p, q, o, rfl⟩ : ∃ (p : Fin 4) (q : Fin 2048) (o : Fin 4096), j = ix3 p q o := ⟨j 0, j 1, j 2, eq_ix3 j⟩
  show _ = refAt x W bias A B (comb al sc) p q o
  unfold term refAt
  rw [addf_apply, addf_apply,
    show Host.dotGeneral dot_S4x2048x4096_S4096x4096_S4x2048x4096_2_1_01_0_n_n none x W (ix3 p q o)
        = ∑ i : Fin 4096, x (ix3 p q i) * W (ix2 o i) from rowsDot_apply _ none x W p q o,
    show broadcastInDim S4x2048x4096 ![0, 1, 2] bcast_S1x1x4096_S4x2048x4096_0_1_2
          (broadcastInDim S1x1x4096 ![2] bcast_S4096_S1x1x4096_2 bias) (ix3 p q o) = bias (ix1 o)
        from lastAxis_apply (by decide) _ _ bias p q o,
    show ∀ Y : FVec Ideal S4x2048x63 .f32, Host.dotGeneral dot_S4x2048x63_S4096x63_S4x2048x4096_2_1_01_0_n_n none Y B (ix3 p q o)
        = ∑ r : Fin 63, Y (ix3 p q r) * B (ix2 o r) from fun Y => rowsDot_apply _ none Y B p q o]
  refine congrArg _ (Finset.sum_congr rfl fun r _ => ?_)
  rw [mulf_apply,
    show Host.dotGeneral dot_S4x2048x4096_S63x4096_S4x2048x63_2_1_01_0_n_n none x A (ix3 p q r)
        = ∑ i : Fin 4096, x (ix3 p q i) * A (ix2 r i) from rowsDot_apply _ none x A p q r,
    show ∀ v : FVec Ideal S63 .f32, broadcastInDim S4x2048x63 ![0, 1, 2] bcast_S1x1x63_S4x2048x63_0_1_2
          (broadcastInDim S1x1x63 ![2] bcast_S63_S1x1x63_2 v) (ix3 p q r) = v (ix1 r)
        from fun v => lastAxis_apply (by decide) _ _ v p q r]
  rfl

end AtIndex

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
        = Cert.FusedLora.refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (comb (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (term_eq _ _ _ _ _ _ _), (h c).2⟩) (run_term (F := Ideal) m ρ)

end Cert.ReferenceIdeal.RefValue

end
-- ==== Proof.KerHost.lean ====
/-
  The fused program's host operations around its one blocked matrix product, as functions of the argument arrays:
  the input reshaped to 8192 rows, the weight with the low-rank correction folded in and transposed, the bias as a row;
  and each of them read at an index.
-/
import proofs.«114046_j86208583566010_1_alg».proof.Proof.Gen.KernelIdeal.Frame
import proofs.«114046_j86208583566010_1_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Which of the six rank branches each of the 63 stacked rows belongs to, as the start indices of the gather. -/
abbrev segIdx : IVec S63x1 32 :=
  broadcastInDim S63x1 ![0] bcast_S63_S63x1_0 (select (constantI S63 1 0#1)
    (addi (fun i => lit0 (S63.rowMajor i)) (broadcastInDim S63 ![] bcast_S_S63 (constantI S_ 32 6#32))) (fun i => lit0 (S63.rowMajor i)))

/-- The per-row scale: the product of the two six-entry vectors, gathered by branch. -/
def comb (al sc : FVec Ideal S6 .f32) : FVec Ideal S63 .f32 :=
  Host.gather gather_S6_S63x1_S63_n_0_n_n_0_1_1 (mulf al sc) segIdx

/-- The folded weight, transposed: entry (k, o) is W[o,k] + ∑ᵣ B[o,r] · (A[r,k] · g[r]). -/
def wT (W : FVec Ideal S4096x4096 .f32) (A : FVec Ideal S63x4096 .f32) (B : FVec Ideal S4096x63 .f32) (g : FVec Ideal S63 .f32) :
    FVec Ideal S4096x4096 .bf16 :=
  truncf .bf16 (transpose S4096x4096 [1, 0] (addf W (Host.dotGeneral dot_S4096x63_S63x4096_S4096x4096_1_0_0_1_n_n none B
    (mulf A (broadcastInDim S63x4096 ![0, 1] bcast_S63x1_S63x4096_0_1 (broadcastInDim S63x1 ![0] bcast_S63_S63x1_0 g)))))
    transposes_S4096x4096_S4096x4096_1_0) bitsLt_bf16_f32

/-- What the region finds in its three input arrays. -/
theorem V_x2d (c : Dev nD) : (V m c main_v13 : S8192x4096.Idx → EReal)
    = shapeCast S8192x4096 (m ((c.tc : Thread nD τ).loc main_arg0)) shapeCasts_S4x2048x4096_S8192x4096 := by
  dsimp only [Gen.V, Gen.V0]
  simp only [List.flatten_cons, List.flatten_nil, List.append_nil]
  after_results
  rfl

theorem V_wT (c : Dev nD) : (V m c main_v12 : S4096x4096.Idx → EReal)
    = wT (m ((c.tc : Thread nD τ).loc main_arg1)) (m ((c.tc : Thread nD τ).loc main_arg3)) (m ((c.tc : Thread nD τ).loc main_arg4))
        (comb (m ((c.tc : Thread nD τ).loc main_arg5)) (m ((c.tc : Thread nD τ).loc main_arg6))) := by
  dsimp only [Gen.V, Gen.V0]
  simp only [List.flatten_cons, List.flatten_nil, List.append_nil]
  after_results_simp
  rfl

theorem V_b2d (c : Dev nD) : (V m c main_v14 : S1x4096.Idx → EReal)
    = shapeCast S1x4096 (m ((c.tc : Thread nD τ).loc main_arg2)) shapeCasts_S4096_S1x4096 := by
  dsimp only [Gen.V, Gen.V0]
  simp only [List.flatten_cons, List.flatten_nil, List.append_nil]
  after_results
  rfl

/-- Row p·2048 + q of the reshaped input is row (p, q) of the input. -/
theorem x2d_at (x : FVec Ideal S4x2048x4096 .f32) (p : Fin 4) (q : Fin 2048) (i : Fin 4096) :
    shapeCast S8192x4096 x shapeCasts_S4x2048x4096_S8192x4096 (ix2 (⟨p.val * 2048 + q.val, by omega⟩ : Fin 8192) i) = x (ix3 p q i) :=
  shapeCast_apply x _ _ _ (by
    rw [Shape.rowMajor_val_three, Shape.rowMajor_val_two]
    show (p.val * 2048 + q.val) * 4096 + i.val = (p.val * 2048 + q.val) * 4096 + i.val
    rfl)

/-- The host contraction's left factor is read at the result's row … -/
theorem wT_lhs_row (j : S4096x4096.Idx) (k : dot_S4096x63_S63x4096_S4096x4096_1_0_0_1_n_n.contr.Idx) :
    (dot_S4096x63_S63x4096_S4096x4096_1_0_0_1_n_n.lhsIdx j k 0).val = (j 0).val := by
  unfold DotDims.lhsIdx
  rw [dif_neg (show ¬ (0 : Fin S4096x63.rank) ∈ dot_S4096x63_S63x4096_S4096x4096_1_0_0_1_n_n.lhsBatch by decide),
    dif_pos (show (0 : Fin S4096x63.rank) ∈ dot_S4096x63_S63x4096_S4096x4096_1_0_0_1_n_n.lhsNonContracting by decide)]
  rfl

/-- … and, in its column, at the contraction position; -/
theorem wT_lhs_col (j : S4096x4096.Idx) (k : dot_S4096x63_S63x4096_S4096x4096_1_0_0_1_n_n.contr.Idx) :
    (dot_S4096x63_S63x4096_S4096x4096_1_0_0_1_n_n.lhsIdx j k 1).val = (k ⟨0, by decide⟩).val :=
  dot_S4096x63_S63x4096_S4096x4096_1_0_0_1_n_n.lhsIdx_val_of_single rfl j k

/-- the right factor, in its row, at the contraction position … -/
theorem wT_rhs_row (j : S4096x4096.Idx) (k : dot_S4096x63_S63x4096_S4096x4096_1_0_0_1_n_n.contr.Idx) :
    (dot_S4096x63_S63x4096_S4096x4096_1_0_0_1_n_n.rhsIdx j k 0).val = (k ⟨0, by decide⟩).val :=
  dot_S4096x63_S63x4096_S4096x4096_1_0_0_1_n_n.rhsIdx_val_of_single rfl j k

/-- … and at the result's column. -/
theorem wT_rhs_col (j : S4096x4096.Idx) (k : dot_S4096x63_S63x4096_S4096x4096_1_0_0_1_n_n.contr.Idx) :
    (dot_S4096x63_S63x4096_S4096x4096_1_0_0_1_n_n.rhsIdx j k 1).val = (j 1).val := by
  unfold DotDims.rhsIdx
  rw [dif_neg (show ¬ (1 : Fin S63x4096.rank) ∈ dot_S4096x63_S63x4096_S4096x4096_1_0_0_1_n_n.rhsBatch by decide),
    dif_pos (show (1 : Fin S63x4096.rank) ∈ dot_S4096x63_S63x4096_S4096x4096_1_0_0_1_n_n.rhsNonContracting by decide)]
  rfl

/-- The per-row scale spread along its row: entry (r, k) of the 63 × 4096 array of scales is g[r]. -/
theorem wT_scale_at (g : FVec Ideal S63 .f32) (r : Fin 63) (k : Fin 4096) :
    broadcastInDim S63x4096 ![0, 1] bcast_S63x1_S63x4096_0_1 (broadcastInDim S63x1 ![0] bcast_S63_S63x1_0 g) (ix2 r k) = g (ix1 r) := by
  rw [broadcastInDim_apply _ _ _ _ (ix2 r (0 : Fin 1)) (fun a => match a with | ⟨0, _⟩ => rfl | ⟨1, _⟩ => rfl)]
  exact broadcastInDim_apply _ _ _ _ (ix1 r) (fun a => match a with | ⟨0, _⟩ => rfl)

/-- The host contraction at (o, k) is the sum over the 63 stacked rows of B[o,r] · M[r,k]. -/
theorem wT_dot_at (B : FVec Ideal S4096x63 .f32) (M : FVec Ideal S63x4096 .f32) (o k : Fin 4096) :
    Host.dotGeneral (F := Ideal) dot_S4096x63_S63x4096_S4096x4096_1_0_0_1_n_n none B M (ix2 o k)
      = ∑ r : Fin 63, B (ix2 o r) * M (ix2 r k) := by
  simp only [Host.dotGeneral]
  rw [Ideal.dotGeneral_apply]
  rw [← Equiv.sum_comp (contrEquiv1 dot_S4096x63_S63x4096_S4096x4096_1_0_0_1_n_n 63 rfl rfl).symm]
  refine Finset.sum_congr rfl fun r _ => ?_
  have hk := contrEquiv1_symm_val dot_S4096x63_S63x4096_S4096x4096_1_0_0_1_n_n 63 rfl rfl r
  congr 2
  · funext a
    match a with
    | ⟨0, _⟩ => exact Fin.ext (wT_lhs_row _ _)
    | ⟨1, _⟩ => exact Fin.ext ((wT_lhs_col _ _).trans hk)
  · funext a
    match a with
    | ⟨0, _⟩ => exact Fin.ext ((wT_rhs_row _ _).trans hk)
    | ⟨1, _⟩ => exact Fin.ext (wT_rhs_col _ _)

/-- The transposed folded weight at (k, o). -/
theorem wT_at (W : FVec Ideal S4096x4096 .f32) (A : FVec Ideal S63x4096 .f32) (B : FVec Ideal S4096x63 .f32) (g : FVec Ideal S63 .f32)
    (k o : Fin 4096) : wT W A B g (ix2 k o) = Cert.FusedLora.fusedW W A B g o k := by
  unfold wT Cert.FusedLora.fusedW
  rw [truncf_apply, transpose_ix2_apply, addf_apply, wT_dot_at]
  refine congrArg _ (Finset.sum_congr rfl fun r _ => ?_)
  rw [mulf_apply, wT_scale_at]

/-- The bias row at column o. -/
theorem b2d_at (b : FVec Ideal S4096 .f32) (o : Fin 4096) :
    shapeCast S1x4096 b shapeCasts_S4096_S1x4096 (ix2 (0 : Fin 1) o) = b (ix1 o) :=
  shapeCast_a_1a_apply b _ 0 o

/-- The result reshaped back: entry (p, q, o) is row p·2048 + q, column o of the 8192-row array. -/
theorem out_at (y : FVec Ideal S8192x4096 .f32) (p : Fin 4) (q : Fin 2048) (o : Fin 4096) :
    shapeCast S4x2048x4096 y shapeCasts_S8192x4096_S4x2048x4096 (ix3 p q o) = y (ix2 (⟨p.val * 2048 + q.val, by omega⟩ : Fin 8192) o) :=
  shapeCast_apply y _ _ _ (by
    rw [Shape.rowMajor_val_three, Shape.rowMajor_val_two]
    show (p.val * 2048 + q.val) * 4096 + o.val = (p.val * 2048 + q.val) * 4096 + o.val
    rfl)

end Cert.KernelIdeal.KerValue

end
-- ==== Proof.KerPayload.lean ====
/-
  One output block of the blocked matrix product, read at an entry: the scratch is zeroed, the first half of the
  contraction is added, then the second half, then the bias row.
-/
import proofs.«114046_j86208583566010_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Idealize.ShloMosaic
open Idealize.ShloMosaic.ValueIdx

/-! ## The dot's operand indices, one axis at a time

The dot contracts the left operand's axis 1 with the right operand's axis 0; the output's axes are the left operand's
axis 0 and then the right operand's axis 1. -/

/-- The left operand's row coordinate is the output's row coordinate. -/
theorem lhs_axis0 (j : S512x1024.Idx) (k : dot_S512x2048_S2048x1024_S512x1024_1_0_0_1_n_n.contr.Idx) :
    (dot_S512x2048_S2048x1024_S512x1024_1_0_0_1_n_n.lhsIdx j k 0).val = (j 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

/-- The left operand's column coordinate is the contraction position. -/
theorem lhs_axis1 (j : S512x1024.Idx) (k : dot_S512x2048_S2048x1024_S512x1024_1_0_0_1_n_n.contr.Idx) :
    (dot_S512x2048_S2048x1024_S512x1024_1_0_0_1_n_n.lhsIdx j k 1).val = (k ⟨0, Nat.one_pos⟩).val :=
  dot_S512x2048_S2048x1024_S512x1024_1_0_0_1_n_n.lhsIdx_val_of_single rfl j k

/-- The right operand's row coordinate is the contraction position. -/
theorem rhs_axis0 (j : S512x1024.Idx) (k : dot_S512x2048_S2048x1024_S512x1024_1_0_0_1_n_n.contr.Idx) :
    (dot_S512x2048_S2048x1024_S512x1024_1_0_0_1_n_n.rhsIdx j k 0).val = (k ⟨0, Nat.one_pos⟩).val :=
  dot_S512x2048_S2048x1024_S512x1024_1_0_0_1_n_n.rhsIdx_val_of_single rfl j k

/-- The right operand's column coordinate is the output's column coordinate. -/
theorem rhs_axis1 (j : S512x1024.Idx) (k : dot_S512x2048_S2048x1024_S512x1024_1_0_0_1_n_n.contr.Idx) :
    (dot_S512x2048_S2048x1024_S512x1024_1_0_0_1_n_n.rhsIdx j k 1).val = (j 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-! ## The contraction at an entry -/

/-- The contraction index is its one coordinate, so at output entry (r, l) the sum over it is row r of the left
    block against column l of the right block, summed over the 2048 positions of the shared axis. -/
theorem dot_at (x : FVec Ideal S512x2048 .bf16) (w : FVec Ideal S2048x1024 .bf16) (r : Fin 512) (l : Fin 1024) :
    (∑ k : dot_S512x2048_S2048x1024_S512x1024_1_0_0_1_n_n.contr.Idx,
        x (dot_S512x2048_S2048x1024_S512x1024_1_0_0_1_n_n.lhsIdx (ix2 r l) k)
          * w (dot_S512x2048_S2048x1024_S512x1024_1_0_0_1_n_n.rhsIdx (ix2 r l) k))
      = ∑ k : Fin 2048, x (ix2 r k) * w (ix2 k l) := by
  rw [← Equiv.sum_comp (contrEquiv1 dot_S512x2048_S2048x1024_S512x1024_1_0_0_1_n_n 2048 rfl rfl).symm]
  refine Finset.sum_congr rfl fun k _ => ?_
  have hk : ((((contrEquiv1 dot_S512x2048_S2048x1024_S512x1024_1_0_0_1_n_n 2048 rfl rfl).symm k) ⟨0, Nat.one_pos⟩ : Fin _) : ℕ) = k.val :=
    contrEquiv1_symm_val dot_S512x2048_S2048x1024_S512x1024_1_0_0_1_n_n 2048 rfl rfl k
  have hl : dot_S512x2048_S2048x1024_S512x1024_1_0_0_1_n_n.lhsIdx (ix2 r l)
      ((contrEquiv1 dot_S512x2048_S2048x1024_S512x1024_1_0_0_1_n_n 2048 rfl rfl).symm k) = ix2 r k := by
    funext a
    refine Fin.ext ?_
    match a with
    | ⟨0, _⟩ => exact lhs_axis0 _ _
    | ⟨1, _⟩ => exact (lhs_axis1 _ _).trans hk
  have hr : dot_S512x2048_S2048x1024_S512x1024_1_0_0_1_n_n.rhsIdx (ix2 r l)
      ((contrEquiv1 dot_S512x2048_S2048x1024_S512x1024_1_0_0_1_n_n 2048 rfl rfl).symm k) = ix2 k l := by
    funext a
    refine Fin.ext ?_
    match a with
    | ⟨0, _⟩ => exact (rhs_axis0 _ _).trans hk
    | ⟨1, _⟩ => exact rhs_axis1 _ _
  rw [hl, hr]

/-! ## One accumulation step, then the whole block -/

/-- One accumulation step read at an entry: the scratch there plus the half contraction. The narrowing of the left
    block is the identity on extended reals, and the product accumulates into zero. -/
theorem half_at (x : FVec Ideal S512x2048 .f32) (w : FVec Ideal S2048x1024 .bf16) (acc : FVec Ideal S512x1024 .f32)
    (r : Fin 512) (l : Fin 1024) :
    k0_pay2 x w acc (ix2 r l) = acc (ix2 r l) + ∑ k : Fin 2048, x (ix2 r k) * w (ix2 k l) := by
  unfold k0_pay2
  simp only [shapeCast_self]
  rw [addf_apply]
  simp only [matmul]
  rw [Ideal.matmul_constant_zero_apply]
  exact congrArg (acc (ix2 r l) + ·) (dot_at (truncf .bf16 x bitsLt_bf16_f32) w r l)

/-- The block a pair of grid points (first half, second half) leaves: entry (r, l) is the two half contractions of
    row r of the input blocks against column l of the weight blocks, first half first, plus the bias row at l. -/
theorem block_at (xa xb : FVec Ideal S512x2048 .f32) (wa wb : FVec Ideal S2048x1024 .bf16) (bb : FVec Ideal S1x1024 .f32)
    (r : Fin 512) (l : Fin 1024) :
    k0_pay3 (k0_pay2 xb wb (k0_pay2 xa wa (k0_pay1 (F := Ideal)))) bb (ix2 r l)
      = ((∑ k : Fin 2048, xa (ix2 r k) * wa (ix2 k l)) + ∑ k : Fin 2048, xb (ix2 r k) * wb (ix2 k l)) + bb (ix2 (0 : Fin 1) l) := by
  unfold k0_pay3
  simp only [shapeCast_self]
  rw [addf_apply, broadcastTo_1b_ab_apply, half_at, half_at]
  unfold k0_pay1
  simp only [shapeCast_self]
  rw [broadcast_apply]
  show (Ideal.ofBits .f32 0x00000000#32 + _ + _) + _ = _
  rw [Ideal.ofBits_zero_f32, zero_add]

end Cert.KernelIdeal.KerValue

end
-- ==== Proof.KerPieces.lean ====
/-
  What one grid point of the blocked matrix product leaves behind, read back from the stores the body makes.

  At a point of the first half of the contraction the scratch block is zeroed and the product of the point's input
  block and weight block is added to it; at a point of the second half the product is added to what the scratch held,
  and the output block is that sum plus the bias row.
-/
import proofs.«114046_j86208583566010_1_alg».proof.Proof.Gen.KernelIdeal.Frame
import Idealize.ShloMosaic.Lib.Pipeline.Value
import Idealize.ShloMosaic.Lib.Tactic

noncomputable section

namespace Cert.KernelIdeal.KerValue

open Cert.KernelIdeal Cert.KernelIdeal.Gen Idealize.ShloMosaic Idealize.ShloMosaic.TcCoe Idealize.SL.Sem

variable {F : FTy → Type} [FloatOps F]

/-- Every store and load of the body starts at the origin of its buffer. -/
theorem origin : (![0, 0] : Fin 2 → Nat) = fun _ => 0 := funext fun a => by fin_cases a <;> rfl

/-- FIRST HALF. The scratch ends at the zero block plus the product of the point's two input blocks: the second store
    covers the first, and its accumulator operand is the first store read back. -/
theorem scratch_first (c : Dev nD) (i : grid0.Coords) (a3 : Memref sig .tc .vmem S512x2048 .f32) (h3 : a3.IsWhole) (a4 : Memref sig .tc .vmem S2048x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i)
    (x0 : Vec F S512x2048 .f32) (x1 : Vec F S2048x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) origin]
  simp only [View.readAt_eq_ld, h3.read_unread, h4.read_unread, View.ld_unit_zero (S := S512x2048) origin,
    View.ld_unit_zero (S := S2048x1024) origin, View.readCov_unit_zero (S := S512x1024) _ origin]

/-- SECOND HALF, the scratch: what it held plus the product of the point's two input blocks. -/
theorem scratch_second (c : Dev nD) (i : grid0.Coords) (a3 : Memref sig .tc .vmem S512x2048 .f32) (h3 : a3.IsWhole) (a4 : Memref sig .tc .vmem S2048x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x2048 .f32) (x1 : Vec F S2048x1024 .bf16) (x2 : Vec F S1x1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h7.read_unread, View.ld_unit_zero (S := S512x2048) origin,
    View.ld_unit_zero (S := S2048x1024) origin, View.ld_unit_zero (S := S512x1024) origin]

/-- SECOND HALF, the output block: the scratch's new contents, read back, plus the bias row over every row. -/
theorem block_second (c : Dev nD) (i : grid0.Coords) (a3 : Memref sig .tc .vmem S512x2048 .f32) (h3 : a3.IsWhole) (a4 : Memref sig .tc .vmem S2048x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x2048 .f32) (x1 : Vec F S2048x1024 .bf16) (x2 : Vec F S1x1024 .f32) (xs0 : Vec F S512x1024 .f32) :
    out0_B_3 c i a3 h3 a4 h4 a5 h5 a6 h6 a7 h7 hc0 hc1 x0 x1 x2 xs0 = k0_pay3 (k0_pay2 x0 x1 xs0) x2 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero origin]
  simp only [View.readAt_eq_ld, h3.read_unread, h4.read_unread, h5.read_unread, h7.read_unread,
    View.ld_unit_zero (S := S512x2048) origin, View.ld_unit_zero (S := S2048x1024) origin,
    View.ld_unit_zero (S := S512x1024) origin, View.ld_unit_zero (S := S1x1024) origin,
    View.readCov_unit_zero (S := S512x1024) _ origin]

end Cert.KernelIdeal.KerValue

end
-- ==== Proof.KerRun.lean ====
/-
  The fused side: what its result array holds after the run, as one function of the argument arrays.

  The grid is 16 × 4 × 2, the last axis the two halves of the contraction, so grid point t has row block t / 8,
  column block (t / 2) % 4 and half t % 2.  The output block is written back at the odd points only.  There it holds:
  the zero block, plus the product of the even point's blocks (the low half of the contraction), plus the product of
  the odd point's blocks (the high half), plus the bias row.  Reading each block where its window puts it in the
  8192 × 4096 arrays makes that block (t / 8, (t / 2) % 4) of ONE function of the three arrays the call reads; the odd
  points' blocks cover the result; the reshape after the call and the host operations before it are read at an index.
-/
import proofs.«114046_j86208583566010_1_alg».proof.Proof.Gen.KernelIdeal.Frame
import proofs.«114046_j86208583566010_1_alg».proof.Proof.Spec
import proofs.«114046_j86208583566010_1_alg».proof.Proof.KerHost
import proofs.«114046_j86208583566010_1_alg».proof.Proof.KerPayload
import proofs.«114046_j86208583566010_1_alg».proof.Proof.KerPieces
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)
open Cert.FusedLora (lo hi)

variable (m : (ℓ : Loc nD τ sig) → Buf (Elt Ideal) ℓ) (ρ : Dev nD → PrngReg)

/-! ## Names of literal type for the blocks and the arrays -/

/-- The input block, the weight block and the bias block the pipeline hands the body at point `t`. -/
abbrev xblk (c : Dev nD) (t : Fin cfg0.N) : FVec Ideal S512x2048 .f32 := iblk m c 0 t
abbrev wblk (c : Dev nD) (t : Fin cfg0.N) : FVec Ideal S2048x1024 .bf16 := iblk m c 1 t
abbrev bblk (c : Dev nD) (t : Fin cfg0.N) : FVec Ideal S1x1024 .f32 := iblk m c 2 t

/-- The three arrays the call reads, as it finds them. -/
abbrev x2d (c : Dev nD) : FVec Ideal S8192x4096 .f32 := V m c main_v13
abbrev wtr (c : Dev nD) : FVec Ideal S4096x4096 .bf16 := V m c main_v12
abbrev b2d (c : Dev nD) : FVec Ideal S1x4096 .f32 := V m c main_v14

/-- The grid point before `t`. -/
abbrev prev (t : Fin cfg0.N) : Fin cfg0.N := ⟨t.val - 1, Nat.lt_of_le_of_lt (Nat.sub_le _ _) t.isLt⟩

/-! ## The output block at an odd point -/

/-- At an odd point the output block is the bias row added to the scratch, which holds the even point's product on
    top of the zero block and then this point's product on top of that. -/
theorem block_at_odd (c : Dev nD) (t : Fin cfg0.N) (h1 : t.val % 2 = 1) :
    (outsAt0 m c t.val t.isLt).1
      = k0_pay3 (F := Ideal) (k0_pay2 (F := Ideal) (xblk m c t) (wblk m c t) (k0_pay2 (F := Ideal) (xblk m c (prev t)) (wblk m c (prev t)) (k0_pay1 (F := Ideal))))
          (bblk m c t) := by
  have h0 : ¬ t.val % 2 = 0 := by omega
  have hp0 : (prev t).val % 2 = 0 := by show (t.val - 1) % 2 = 0; omega
  have hp1 : ¬ (prev t).val % 2 = 1 := by show ¬ (t.val - 1) % 2 = 1; omega
  rw [outsAt0_B m c t h0 h1]
  dsimp only
  rw [block_second (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2]
  have e : (outsAt0 m c (t.val - 1) (Nat.lt_of_le_of_lt (Nat.sub_le _ _) t.isLt)).2
      = k0_pay2 (F := Ideal) (xblk m c (prev t)) (wblk m c (prev t)) (k0_pay1 (F := Ideal)) := by
    show (outsAt0 m c (prev t).val (prev t).isLt).2 = _
    rw [outsAt0_A m c (prev t) hp0 hp1]
    dsimp only
    exact scratch_first (F := Ideal) c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _) ((hcond0_0 (prev t)).mpr hp0) (fun h => hp1 ((hcond0_1 (prev t)).mp h))
      (iblk m c 0 (prev t)) (iblk m c 1 (prev t)) (iblk m c 2 (prev t))
  rw [e]

/-! ## Where each block sits in its array -/

/-- The printed index maps over the grid: row block t / 8, column block (t / 2) % 4, half t % 2. -/
theorem idx_x : ∀ t : Fin cfg0.N, win0_0.index t (0 : Fin 2) = t.val / 8 ∧ win0_0.index t (1 : Fin 2) = t.val % 2 :=
  (by decide +kernel : ∀ t : Fin grid0.N, _)
theorem idx_w : ∀ t : Fin cfg0.N, win0_1.index t (0 : Fin 2) = t.val % 2 ∧ win0_1.index t (1 : Fin 2) = t.val / 2 % 4 :=
  (by decide +kernel : ∀ t : Fin grid0.N, _)
theorem idx_b : ∀ t : Fin cfg0.N, win0_2.index t (0 : Fin 2) = 0 ∧ win0_2.index t (1 : Fin 2) = t.val / 2 % 4 :=
  (by decide +kernel : ∀ t : Fin grid0.N, _)
theorem idx_o : ∀ t : Fin cfg0.N, win0_3.index t (0 : Fin 2) = t.val / 8 ∧ win0_3.index t (1 : Fin 2) = t.val / 2 % 4 :=
  (by decide +kernel : ∀ t : Fin grid0.N, _)

/-- Row `r` of point `t`'s row block, column `l` of its column block, column `k` of its half, in the arrays. -/
def rowOf (t : Fin cfg0.N) (r : Fin 512) : Fin 8192 :=
  ⟨512 * (t.val / 8) + r.val, by have := t.isLt; have hN : cfg0.N = 128 := N_0; omega⟩
def colOf (t : Fin cfg0.N) (l : Fin 1024) : Fin 4096 := ⟨1024 * (t.val / 2 % 4) + l.val, by omega⟩
def halfOf (t : Fin cfg0.N) (k : Fin 2048) : Fin 4096 := ⟨2048 * (t.val % 2) + k.val, by omega⟩

theorem xblk_at (c : Dev nD) (t : Fin cfg0.N) (r : Fin 512) (k : Fin 2048) :
    xblk m c t (ix2 r k) = x2d m c (ix2 (rowOf t r) (halfOf t k)) := by
  show ((cfg0.win 0).blk t).view.read (Elt Ideal) (V m c (Pipeline.arrRef spec0 0)) (ix2 r k) = _
  rw [View.read_apply]
  refine congrArg (x2d m c) (funext fun a => Fin.ext ?_)
  match a with
  | ⟨0, _⟩ => show win0_0.index t (0 : Fin 2) * 512 + 1 * r.val = 512 * (t.val / 8) + r.val; rw [(idx_x t).1]; omega
  | ⟨1, _⟩ => show win0_0.index t (1 : Fin 2) * 2048 + 1 * k.val = 2048 * (t.val % 2) + k.val; rw [(idx_x t).2]; omega

theorem wblk_at (c : Dev nD) (t : Fin cfg0.N) (k : Fin 2048) (l : Fin 1024) :
    wblk m c t (ix2 k l) = wtr m c (ix2 (halfOf t k) (colOf t l)) := by
  show ((cfg0.win 1).blk t).view.read (Elt Ideal) (V m c (Pipeline.arrRef spec0 1)) (ix2 k l) = _
  rw [View.read_apply]
  refine congrArg (wtr m c) (funext fun a => Fin.ext ?_)
  match a with
  | ⟨0, _⟩ => show win0_1.index t (0 : Fin 2) * 2048 + 1 * k.val = 2048 * (t.val % 2) + k.val; rw [(idx_w t).1]; omega
  | ⟨1, _⟩ => show win0_1.index t (1 : Fin 2) * 1024 + 1 * l.val = 1024 * (t.val / 2 % 4) + l.val; rw [(idx_w t).2]; omega

theorem bblk_at (c : Dev nD) (t : Fin cfg0.N) (l : Fin 1024) :
    bblk m c t (ix2 (0 : Fin 1) l) = b2d m c (ix2 (0 : Fin 1) (colOf t l)) := by
  show ((cfg0.win 2).blk t).view.read (Elt Ideal) (V m c (Pipeline.arrRef spec0 2)) (ix2 (0 : Fin 1) l) = _
  rw [View.read_apply]
  refine congrArg (b2d m c) (funext fun a => Fin.ext ?_)
  match a with
  | ⟨0, _⟩ => show win0_2.index t (0 : Fin 2) * 1 + 1 * 0 = 0; rw [(idx_b t).1]
  | ⟨1, _⟩ => show win0_2.index t (1 : Fin 2) * 1024 + 1 * l.val = 1024 * (t.val / 2 % 4) + l.val; rw [(idx_b t).2]; omega

/-! ## The 8192 × 4096 result as one function of the three arrays -/

/-- Entry (row, col): the low half of the contraction, then the high half, then the bias at the column. -/
def out2dAt (X : FVec Ideal S8192x4096 .f32) (Wt : FVec Ideal S4096x4096 .bf16) (b2 : FVec Ideal S1x4096 .f32)
    (row : Fin 8192) (col : Fin 4096) : EReal :=
  ((∑ k : Fin 2048, X (ix2 row (lo k)) * Wt (ix2 (lo k) col)) + ∑ k : Fin 2048, X (ix2 row (hi k)) * Wt (ix2 (hi k) col))
    + b2 (ix2 (0 : Fin 1) col)
def out2d (X : FVec Ideal S8192x4096 .f32) (Wt : FVec Ideal S4096x4096 .bf16) (b2 : FVec Ideal S1x4096 .f32) :
    FVec Ideal S8192x4096 .f32 := fun j => out2dAt X Wt b2 (j 0) (j 1)

/-- An even point's half is the low one, an odd point's the high one. -/
theorem halfOf_even (t : Fin cfg0.N) (h : t.val % 2 = 0) (k : Fin 2048) : halfOf t k = lo k :=
  Fin.ext (by show 2048 * (t.val % 2) + k.val = k.val; omega)
theorem halfOf_odd (t : Fin cfg0.N) (h : t.val % 2 = 1) (k : Fin 2048) : halfOf t k = hi k :=
  Fin.ext (by show 2048 * (t.val % 2) + k.val = 2048 + k.val; omega)
/-- The point before an odd point has the same row block and column block. -/
theorem rowOf_prev (t : Fin cfg0.N) (h : t.val % 2 = 1) (r : Fin 512) : rowOf (prev t) r = rowOf t r :=
  Fin.ext (by show 512 * ((t.val - 1) / 8) + r.val = 512 * (t.val / 8) + r.val; omega)
theorem colOf_prev (t : Fin cfg0.N) (h : t.val % 2 = 1) (l : Fin 1024) : colOf (prev t) l = colOf t l :=
  Fin.ext (by show 1024 * ((t.val - 1) / 2 % 4) + l.val = 1024 * (t.val / 2 % 4) + l.val; omega)

/-- The odd point's output block, entry by entry, is the result function at the block's place. -/
theorem odd_block_entry (c : Dev nD) (t : Fin cfg0.N) (h1 : t.val % 2 = 1) (r : Fin 512) (l : Fin 1024) :
    k0_pay3 (F := Ideal) (k0_pay2 (F := Ideal) (xblk m c t) (wblk m c t) (k0_pay2 (F := Ideal) (xblk m c (prev t)) (wblk m c (prev t)) (k0_pay1 (F := Ideal))))
        (bblk m c t) (ix2 r l)
      = out2dAt (x2d m c) (wtr m c) (b2d m c) (rowOf t r) (colOf t l) := by
  have hp0 : (prev t).val % 2 = 0 := by show (t.val - 1) % 2 = 0; omega
  rw [block_at (xblk m c (prev t)) (xblk m c t) (wblk m c (prev t)) (wblk m c t) (bblk m c t) r l]
  unfold out2dAt
  simp only [xblk_at, wblk_at, bblk_at, halfOf_even (prev t) hp0, halfOf_odd t h1, rowOf_prev t h1, colOf_prev t h1]

/-! ## From blocks to the array -/

/-- WHAT AN ODD POINT WRITES BACK is its block of the result function of the three arrays. -/
theorem flushed_eq (c : Dev nD) (t : Fin cfg0.N) (hf : (cfg0.win 3).flush t = true) :
    (dats m 0 c).flushed 3 t = ((cfg0.win 3).blk t).view.read (Elt Ideal) (out2d (x2d m c) (wtr m c) (b2d m c)) := by
  have h1 : t.val % 2 = 1 := (flush0_3 t).mp hf
  show (cfg0.win 3).cut (grid0.coords t) ((dats m 0 c).after 3 t) = _
  rw [after0_3, block_at_odd m c t h1]
  funext j
  have ej : j = ix2 (j 0) (j 1) := eq_ix2 j
  have ee : ((cfg0.win 3).blk t).view.emb j = ix2 (rowOf t (j 0)) (colOf t (j 1)) := by
    funext a; apply Fin.ext
    match a with
    | ⟨0, _⟩ => show win0_3.index t (0 : Fin 2) * 512 + 1 * (j 0).val = 512 * (t.val / 8) + (j 0).val; rw [(idx_o t).1]; omega
    | ⟨1, _⟩ => show win0_3.index t (1 : Fin 2) * 1024 + 1 * (j 1).val = 1024 * (t.val / 2 % 4) + (j 1).val; rw [(idx_o t).2]; omega
  show _ = out2d (x2d m c) (wtr m c) (b2d m c) (((cfg0.win 3).blk t).view.emb j)
  rw [ee]
  exact (congrArg _ ej).trans (odd_block_entry m c t h1 (j 0) (j 1))

/-- An index of the result is in point `t`'s block iff each coordinate is in the block's range on its axis. -/
theorem mem_block (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v15).slice (win0_3.rect t)).set ↔ _
  rw [View.set_slice_whole, Rect.mem_set_unit]
  exact Iff.rfl

/-- Every entry of the result lies in the block of the odd point of its row block and column block. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨((i 0).val / 512 * 4 + (i 1).val / 1024) * 2 + 1, by omega⟩
  have ht : t.val = ((i 0).val / 512 * 4 + (i 1).val / 1024) * 2 + 1 := rfl
  refine ⟨t, (flush0_3 t).mpr (by omega), ?_⟩
  rw [mem_block]
  intro a
  match a with
  | ⟨0, _⟩ => show win0_3.index t (0 : Fin 2) * 512 ≤ (i 0).val ∧ (i 0).val < win0_3.index t (0 : Fin 2) * 512 + 512; rw [(idx_o t).1]; omega
  | ⟨1, _⟩ => show win0_3.index t (1 : Fin 2) * 1024 ≤ (i 1).val ∧ (i 1).val < win0_3.index t (1 : Fin 2) * 1024 + 1024; rw [(idx_o t).2]; omega

/-- THE ARRAY after the run: the result function of the three arrays the call reads. -/
theorem final_out (c : Dev nD) : (dats m 0 c).arrAt 3 cfg0.N = out2d (x2d m c) (wtr m c) (b2d m c) :=
  (dats m 0 c).arrAt_eq_of_cover 3 (out2d (x2d m c) (wtr m c) (b2d m c)) (flushed_eq m c) covered

/-! ## The reshape after the call, and the host operations before it -/

/-- Entry (p, q, o) of the fused side's function is entry (p·2048 + q, o) of the 8192-row result: the reshaped input read
    at its row, the transposed folded weight at its column, the bias row at its column. -/
theorem entry_eq (c : Dev nD) (p : Fin 4) (q : Fin 2048) (o : Fin 4096) :
    out2dAt (x2d m c) (wtr m c) (b2d m c) (⟨p.val * 2048 + q.val, by omega⟩ : Fin 8192) o
      = Cert.FusedLora.kerAt (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (comb (m ((c.tc : Thread nD τ).loc main_arg5)) (m ((c.tc : Thread nD τ).loc main_arg6))) p q o := by
  have hx : ∀ i : Fin 4096, x2d m c (ix2 (⟨p.val * 2048 + q.val, by omega⟩ : Fin 8192) i) = m ((c.tc : Thread nD τ).loc main_arg0) (ix3 p q i) := fun i => by
    rw [show x2d m c = _ from V_x2d m c]; exact x2d_at _ p q i
  have hw : ∀ k : Fin 4096, wtr m c (ix2 k o)
      = Cert.FusedLora.fusedW (m ((c.tc : Thread nD τ).loc main_arg1)) (m ((c.tc : Thread nD τ).loc main_arg3)) (m ((c.tc : Thread nD τ).loc main_arg4))
          (comb (m ((c.tc : Thread nD τ).loc main_arg5)) (m ((c.tc : Thread nD τ).loc main_arg6))) o k := fun k => by
    rw [show wtr m c = _ from V_wT m c]; exact wT_at _ _ _ _ k o
  have hb : b2d m c (ix2 (0 : Fin 1) o) = m ((c.tc : Thread nD τ).loc main_arg2) (ix1 o) := by
    rw [show b2d m c = _ from V_b2d m c]; exact b2d_at _ o
  unfold out2dAt Cert.FusedLora.kerAt
  simp only [hx, hw, hb]

/-- The result reshaped to (4, 2048, 4096) is the fused side's function of the argument arrays. -/
theorem reshaped_eq (c : Dev nD) :
    shapeCast S4x2048x4096 (out2d (x2d m c) (wtr m c) (b2d m c)) shapeCasts_S8192x4096_S4x2048x4096
      = Cert.FusedLora.kerOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (comb (m ((c.tc : Thread nD τ).loc main_arg5)) (m ((c.tc : Thread nD τ).loc main_arg6))) := by
  funext j
  obtain ⟨p, q, o, rfl⟩ : ∃ (p : Fin 4) (q : Fin 2048) (o : Fin 4096), j = ix3 p q o := ⟨j 0, j 1, j 2, eq_ix3 j⟩
  rw [out_at]
  exact entry_eq m c p q o

/-- What the buffer the reshape writes holds at the end. -/
theorem tail_eq (c : Dev nD) :
    Pipeline.afterTail₀ cfgs (dats m) 0 (V0 m) [hostOps1] c main_v16
      = Cert.FusedLora.kerOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (comb (m ((c.tc : Thread nD τ).loc main_arg5)) (m ((c.tc : Thread nD τ).loc main_arg6))) := by
  unfold Pipeline.afterTail₀
  show StableHlo.after hostOps1 _ (Proc.devRef .tc main_v16) = _
  after_results
  rw [Pipeline.withArrays_arr spec0 launch0.win.arr_inj c _ _ 3, final_out]
  exact reshaped_eq m c

/-! ## The run -/

theorem run :
    θ_run (defs (F := Ideal)) (onTc (τ := τ) (main (F := Ideal))) ⟨m, fun _ => 0, ρ⟩ fun r => ∀ c : Dev nD,
      r.2.mem ((c.tc : Thread nD τ).loc main_v16)
        = Cert.FusedLora.kerOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (comb (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KerValue

end
-- ==== Proof.lean ====
/-
  A linear layer with a low-rank correction, computed two ways.  One program folds the correction into the weight and
  runs a single blocked matrix product, accumulating two halves of the contraction in a scratch block and adding the
  bias at the second half; the other computes the base product and the scaled low-rank branch apart and adds them.
  Read at the extended reals, on inputs whose entries are real numbers, both end with the same array: distribute the
  input row over the folded weight, exchange the sums over the contraction and over the rank, regroup.  The three
  frames are the programs' runs with the result dropped; nothing was rewritten between the printed program and its
  idealization, so that conjunct is trivial.
-/
import proofs.«114046_j86208583566010_1_alg».proof.Defs
import proofs.«114046_j86208583566010_1_alg».proof.Proof.Gen.Kernel
import proofs.«114046_j86208583566010_1_alg».proof.Proof.Gen.Kernel.Skeleton
import proofs.«114046_j86208583566010_1_alg».proof.Proof.Gen.Kernel.Launch
import proofs.«114046_j86208583566010_1_alg».proof.Proof.Gen.Kernel.Points
import proofs.«114046_j86208583566010_1_alg».proof.Proof.Gen.Kernel.Frame
import proofs.«114046_j86208583566010_1_alg».proof.Proof.Gen.KernelIdeal
import proofs.«114046_j86208583566010_1_alg».proof.Proof.Gen.KernelIdeal.Skeleton
import proofs.«114046_j86208583566010_1_alg».proof.Proof.Gen.KernelIdeal.Launch
import proofs.«114046_j86208583566010_1_alg».proof.Proof.Gen.KernelIdeal.Points
import proofs.«114046_j86208583566010_1_alg».proof.Proof.Gen.KernelIdeal.Frame
import proofs.«114046_j86208583566010_1_alg».proof.Proof.Gen.ReferenceIdeal
import proofs.«114046_j86208583566010_1_alg».proof.Proof.Gen.Pre_finite_inputs
import proofs.«114046_j86208583566010_1_alg».proof.Proof.Spec
import proofs.«114046_j86208583566010_1_alg».proof.Proof.Finite
import proofs.«114046_j86208583566010_1_alg».proof.Proof.RefSide
import proofs.«114046_j86208583566010_1_alg».proof.Proof.KerRun
import Idealize.ShloMosaic.Adequacy
import Idealize.ShloMosaic.Init

noncomputable section

namespace Cert.Proof

open Idealize.ShloMosaic Idealize.SL.Sem

/-- Both programs gather the same per-row scale from the same two six-entry vectors. -/
theorem comb_same (al sc : FVec Ideal Cert.KernelIdeal.S6 .f32) :
    Cert.KernelIdeal.KerValue.comb al sc = Cert.ReferenceIdeal.RefValue.comb al sc := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- On inputs of real numbers the fused program's result array and the two-branch program's are one array. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  obtain ⟨f0, f1, f2, f3, f4, f5, f6⟩ := Cert.FiniteInputs.reals_of_pre _ _ _ _ _ _ _ (hpre c)
  rw [h0, h1, h2, h3, h4, h5, h6, ← comb_same]
  exact Cert.FusedLora.bridge _ _ _ _ _ _ f0 f1 f2 f3 f4
    (fun y => Cert.FusedLora.gather_real _ _ _ (fun i => Cert.FusedLora.mul_real _ _ f5 f6 i) y)

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
